-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x200 : Shape := ⟨2, ![100000, 200]⟩
abbrev S500x200 : Shape := ⟨2, ![500, 200]⟩
abbrev S512 : Shape := ⟨1, ![512]⟩
abbrev S_ : Shape := ⟨0, ![]⟩

class Facts : Prop where
  bcast_S_S100000x200 : S_.BroadcastsInDim S100000x200 (![] : Fin 0 → Fin S100000x200.rank)
  reducesTo_S100000x200_S_d0_1 : S100000x200.ReducesTo [0, 1] S_
  h_S_ : 0 < S_.numel
  bcast_S_S500x200 : S_.BroadcastsInDim S500x200 (![] : Fin 0 → Fin S500x200.rank)
  reducesTo_S500x200_S_d0_1 : S500x200.ReducesTo [0, 1] S_

variable [Facts]

def fn_part1 {F : FTy → Type} [FloatOps F] (main_v13 : IVec S_ 1) (main_v16 : IVec S500x200 1) : IVec S_ 1 :=
  let main_c_5 : IVec S_ 1 := constantI S_ 1 1#1
  let main_v17 : IVec S_ 1 := (fun x v => Host.reduce IntOp.andi x v reducesTo_S500x200_S_d0_1 h_S_) main_v16 main_c_5
  let main_v18 : IVec S_ 1 := andi main_v13 main_v17
  main_v18

def fn {F : FTy → Type} [FloatOps F] (main_arg0 : FVec F S100000x200 .f32) (main_arg1 : FVec F S100000x200 .f32) (main_arg2 : FVec F S500x200 .f32) (main_arg3 : FVec F S500x200 .f32) (main_arg4 : IVec S512 32) (main_arg5 : IVec S512 32) : IVec S_ 1 :=
  let main_v0 : FVec F S100000x200 .f32 := Host.absf main_arg0
  let main_cst : FVec F S_ .f32 := constant S_ .f32 0x7F800000#32
  let main_v1 : FVec F S100000x200 .f32 := broadcastInDim S100000x200 ![] bcast_S_S100000x200 main_cst
  let main_v2 : IVec S100000x200 1 := cmpf .olt main_v0 main_v1
  let main_c : IVec S_ 1 := constantI S_ 1 1#1
  let main_v3 : IVec S_ 1 := (fun x v => Host.reduce IntOp.andi x v reducesTo_S100000x200_S_d0_1 h_S_) main_v2 main_c
  let main_v4 : FVec F S100000x200 .f32 := Host.absf main_arg1
  let main_cst_0 : FVec F S_ .f32 := constant S_ .f32 0x7F800000#32
  let main_v5 : FVec F S100000x200 .f32 := broadcastInDim S100000x200 ![] bcast_S_S100000x200 main_cst_0
  let main_v6 : IVec S100000x200 1 := cmpf .olt main_v4 main_v5
  let main_c_1 : IVec S_ 1 := constantI S_ 1 1#1
  let main_v7 : IVec S_ 1 := (fun x v => Host.reduce IntOp.andi x v reducesTo_S100000x200_S_d0_1 h_S_) main_v6 main_c_1
  let main_v8 : IVec S_ 1 := andi main_v3 main_v7
  let main_v9 : FVec F S500x200 .f32 := Host.absf main_arg2
  let main_cst_2 : FVec F S_ .f32 := constant S_ .f32 0x7F800000#32
  let main_v10 : FVec F S500x200 .f32 := broadcastInDim S500x200 ![] bcast_S_S500x200 main_cst_2
  let main_v11 : IVec S500x200 1 := cmpf .olt main_v9 main_v10
  let main_c_3 : IVec S_ 1 := constantI S_ 1 1#1
  let main_v12 : IVec S_ 1 := (fun x v => Host.reduce IntOp.andi x v reducesTo_S500x200_S_d0_1 h_S_) main_v11 main_c_3
  let main_v13 : IVec S_ 1 := andi main_v8 main_v12
  let main_v14 : FVec F S500x200 .f32 := Host.absf main_arg3
  let main_cst_4 : FVec F S_ .f32 := constant S_ .f32 0x7F800000#32
  let main_v15 : FVec F S500x200 .f32 := broadcastInDim S500x200 ![] bcast_S_S500x200 main_cst_4
  let main_v16 : IVec S500x200 1 := cmpf .olt main_v14 main_v15
  fn_part1 (F := F) main_v13 main_v16
-- ==== Kernel.lean ====
abbrev S100000x200 : Shape := ⟨2, ![100000, 200]⟩
abbrev S500x200 : Shape := ⟨2, ![500, 200]⟩
abbrev S512 : Shape := ⟨1, ![512]⟩
abbrev S_ : Shape := ⟨0, ![]⟩
abbrev S512x1 : Shape := ⟨2, ![512, 1]⟩
abbrev S512x200 : Shape := ⟨2, ![512, 200]⟩
abbrev S100352x200 : Shape := ⟨2, ![100352, 200]⟩
abbrev S512x100352 : Shape := ⟨2, ![512, 100352]⟩
abbrev S2048x200 : Shape := ⟨2, ![2048, 200]⟩
abbrev S512x2048 : Shape := ⟨2, ![512, 2048]⟩
abbrev S512x100000 : Shape := ⟨2, ![512, 100000]⟩

abbrev nBuf : Space → Nat
  | .hbm => 56
  | .vmem => 8
  | .smem => 0
  | _ => 0

abbrev bufTy : (tb : Table) → Fin (tcTables nBuf tb) → BufTy
  | .hbm, ⟨0, _⟩ => ⟨S100000x200, .f32⟩
  | .hbm, ⟨1, _⟩ => ⟨S100000x200, .f32⟩
  | .hbm, ⟨2, _⟩ => ⟨S500x200, .f32⟩
  | .hbm, ⟨3, _⟩ => ⟨S500x200, .f32⟩
  | .hbm, ⟨4, _⟩ => ⟨S512, .i32⟩
  | .hbm, ⟨5, _⟩ => ⟨S512, .i32⟩
  | .hbm, ⟨6, _⟩ => ⟨S_, .i32⟩
  | .hbm, ⟨7, _⟩ => ⟨S512, .i32⟩
  | .hbm, ⟨8, _⟩ => ⟨S512, .i1⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S512x1, .i32⟩
  | .hbm, ⟨14, _⟩ => ⟨S512x200, .f32⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S512, .i32⟩
  | .hbm, ⟨22, _⟩ => ⟨S512x1, .i32⟩
  | .hbm, ⟨23, _⟩ => ⟨S512x200, .f32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S512x200, .f32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S_, .i32⟩
  | .hbm, ⟨37, _⟩ => ⟨S512, .i32⟩
  | .hbm, ⟨38, _⟩ => ⟨S512, .i32⟩
  | .hbm, ⟨39, _⟩ => ⟨S512, .i32⟩
  | .hbm, ⟨40, _⟩ => ⟨S512x1, .i32⟩
  | .hbm, ⟨41, _⟩ => ⟨S512x200, .f32⟩
  | .hbm, ⟨42, _⟩ => ⟨S512x200, .f32⟩
  | .hbm, ⟨43, _⟩ => ⟨S512x200, .f32⟩
  | .hbm, ⟨44, _⟩ => ⟨S512x200, .f32⟩
  | .hbm, ⟨45, _⟩ => ⟨S512x200, .f32⟩
  | .hbm, ⟨46, _⟩ => ⟨S512x200, .f32⟩
  | .hbm, ⟨47, _⟩ => ⟨S512x200, .f32⟩
  | .hbm, ⟨48, _⟩ => ⟨S_, .i32⟩
  | .hbm, ⟨49, _⟩ => ⟨S_, .f32⟩
  | .hbm, ⟨50, _⟩ => ⟨S100352x200, .f32⟩
  | .hbm, ⟨51, _⟩ => ⟨S_, .i32⟩
  | .hbm, ⟨52, _⟩ => ⟨S_, .f32⟩
  | .hbm, ⟨53, _⟩ => ⟨S100352x200, .f32⟩
  | .hbm, ⟨54, _⟩ => ⟨S512x100352, .f32⟩
  | .hbm, ⟨55, _⟩ => ⟨S512x100000, .f32⟩
  | .local _ .vmem, ⟨0, _⟩ => ⟨S512x200, .f32⟩
  | .local _ .vmem, ⟨1, _⟩ => ⟨S512x200, .f32⟩
  | .local _ .vmem, ⟨2, _⟩ => ⟨S2048x200, .f32⟩
  | .local _ .vmem, ⟨3, _⟩ => ⟨S2048x200, .f32⟩
  | .local _ .vmem, ⟨4, _⟩ => ⟨S2048x200, .f32⟩
  | .local _ .vmem, ⟨5, _⟩ => ⟨S2048x200, .f32⟩
  | .local _ .vmem, ⟨6, _⟩ => ⟨S512x2048, .f32⟩
  | .local _ .vmem, ⟨7, _⟩ => ⟨S512x2048, .f32⟩
  | _, _ => ⟨S100000x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_7 : Ref sig .tc := ⟨.hbm, 48, rfl⟩
abbrev main_call0_v0 : Ref sig .tc := ⟨.hbm, 49, rfl⟩
abbrev main_v34 : Ref sig .tc := ⟨.hbm, 50, rfl⟩
abbrev main_c_8 : Ref sig .tc := ⟨.hbm, 51, rfl⟩
abbrev main_call1_v0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x200 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S512 : S_.BroadcastsInDim S512 (![] : Fin 0 → Fin S512.rank)
  bcast_S512_S512x1_0 : S512.BroadcastsInDim S512x1 (![0] : Fin 1 → Fin S512x1.rank)
  pads_S100000x200_S100352x200_03520_000 : S100000x200.Pads (![0, 0] : Fin 2 → Nat) ![352, 0] ![0, 0] S100352x200
  h_S_ : 0 < S_.numel
  inb_S512x200_S512x200_0_0 : ∀ a, (![0, 0] : Fin 2 → Nat) a + S512x200.size a ≤ S512x200.size a
  h_S512x200 : 0 < S512x200.numel
  shapeCasts_S512x200_S512x200 : S512x200.ShapeCasts S512x200
  bitsLt_bf16_f32 : FTy.bits .bf16 < FTy.bits .f32
  inb_S2048x200_S2048x200_0_0 : ∀ a, (![0, 0] : Fin 2 → Nat) a + S2048x200.size a ≤ S2048x200.size a
  h_S2048x200 : 0 < S2048x200.numel
  shapeCasts_S2048x200_S2048x200 : S2048x200.ShapeCasts S2048x200
  inb_S512x2048_S512x2048_0_0 : ∀ a, (![0, 0] : Fin 2 → Nat) a + S512x2048.size a ≤ S512x2048.size a
  h_S512x2048 : 0 < S512x2048.numel
  slices_S512x100352_S512x100000_0_0 : S512x100352.Slices ![0, 0] S512x100000
  gather_S100000x200_S512x1_S512x200_1_0_n_n_0_1_1200_wf : GatherDims.WF S100000x200 S512x1 S512x200 [1] [0] [] [0] [] 1 ![1, 200]
  gather_S500x200_S512x1_S512x200_1_0_n_n_0_1_1200_wf : GatherDims.WF S500x200 S512x1 S512x200 [1] [0] [] [0] [] 1 ![1, 200]
  dot_S512x200_S2048x200_S512x2048_1_1_0_0_n_n_wf : DotDims.WF S512x200 S2048x200 S512x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x200.size a ≤ S512x200.size a
  hwx0_0 : ∀ i : grid0.Coords, EltTy.bits .f32 = 32 ∨ (Rect.block (s := S512x200) S512x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x200.size a ≤ S512x200.size a
  hwx0_1 : ∀ i : grid0.Coords, EltTy.bits .f32 = 32 ∨ (Rect.block (s := S512x200) S512x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x200.size a ≤ S100352x200.size a
  hwx0_2 : ∀ i : grid0.Coords, EltTy.bits .f32 = 32 ∨ (Rect.block (s := S100352x200) S2048x200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x200.size a ≤ S100352x200.size a
  hwx0_3 : ∀ i : grid0.Coords, EltTy.bits .f32 = 32 ∨ (Rect.block (s := S100352x200) S2048x200.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x100352.size a
  hwx0_4 : ∀ i : grid0.Coords, EltTy.bits .f32 = 32 ∨ (Rect.block (s := S512x100352) S512x2048.size (cc0_transform_4 i) (hinb0_4 i)).WholeWords (EltTy.packing .f32)

variable [Facts₀]

def gather_S100000x200_S512x1_S512x200_1_0_n_n_0_1_1200 : GatherDims S100000x200 S512x1 S512x200 where
  offsetDims := [1]
  collapsedSliceDims := [0]
  operandBatchingDims := []
  startIndicesBatchingDims := []
  startIndexMap := [0]
  indexVectorDim := 1
  sliceSizes := ![1, 200]
  wf := gather_S100000x200_S512x1_S512x200_1_0_n_n_0_1_1200_wf
def gather_S500x200_S512x1_S512x200_1_0_n_n_0_1_1200 : GatherDims S500x200 S512x1 S512x200 where
  offsetDims := [1]
  collapsedSliceDims := [0]
  operandBatchingDims := []
  startIndicesBatchingDims := []
  startIndexMap := [0]
  indexVectorDim := 1
  sliceSizes := ![1, 200]
  wf := gather_S500x200_S512x1_S512x200_1_0_n_n_0_1_1200_wf
def dot_S512x200_S2048x200_S512x2048_1_1_0_0_n_n : DotDims S512x200 S2048x200 S512x2048 where
  lhsContracting := [1]
  rhsContracting := [1]
  lhsNonContracting := [0]
  rhsNonContracting := [0]
  lhsBatch := []
  rhsBatch := []
  wf := dot_S512x200_S2048x200_S512x2048_1_1_0_0_n_n_wf

abbrev win0_0 : Pipeline.Window sig grid0 :=
  Pipeline.Window.ofSpec (Memref.whole main_v30) S512x200.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v33) S512x200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2048x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S2048x200.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v36) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x200 : Shape := ⟨2, ![100000, 200]⟩
abbrev S500x200 : Shape := ⟨2, ![500, 200]⟩
abbrev S512 : Shape := ⟨1, ![512]⟩
abbrev S_ : Shape := ⟨0, ![]⟩
abbrev S512x1 : Shape := ⟨2, ![512, 1]⟩
abbrev S512x200 : Shape := ⟨2, ![512, 200]⟩
abbrev S512x100000 : Shape := ⟨2, ![512, 100000]⟩

abbrev nBuf : Space → Nat
  | .hbm => 51
  | .vmem => 0
  | .smem => 0
  | _ => 0

abbrev bufTy : (tb : Table) → Fin (tcTables nBuf tb) → BufTy
  | .hbm, ⟨0, _⟩ => ⟨S100000x200, .f32⟩
  | .hbm, ⟨1, _⟩ => ⟨S100000x200, .f32⟩
  | .hbm, ⟨2, _⟩ => ⟨S500x200, .f32⟩
  | .hbm, ⟨3, _⟩ => ⟨S500x200, .f32⟩
  | .hbm, ⟨4, _⟩ => ⟨S512, .i32⟩
  | .hbm, ⟨5, _⟩ => ⟨S512, .i32⟩
  | .hbm, ⟨6, _⟩ => ⟨S_, .i32⟩
  | .hbm, ⟨7, _⟩ => ⟨S512, .i32⟩
  | .hbm, ⟨8, _⟩ => ⟨S512, .i1⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S512x1, .i32⟩
  | .hbm, ⟨14, _⟩ => ⟨S512x200, .f32⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S512, .i32⟩
  | .hbm, ⟨22, _⟩ => ⟨S512x1, .i32⟩
  | .hbm, ⟨23, _⟩ => ⟨S512x200, .f32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S512x200, .f32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S_, .i32⟩
  | .hbm, ⟨37, _⟩ => ⟨S512, .i32⟩
  | .hbm, ⟨38, _⟩ => ⟨S512, .i32⟩
  | .hbm, ⟨39, _⟩ => ⟨S512, .i32⟩
  | .hbm, ⟨40, _⟩ => ⟨S512x1, .i32⟩
  | .hbm, ⟨41, _⟩ => ⟨S512x200, .f32⟩
  | .hbm, ⟨42, _⟩ => ⟨S512x200, .f32⟩
  | .hbm, ⟨43, _⟩ => ⟨S512x200, .f32⟩
  | .hbm, ⟨44, _⟩ => ⟨S512x200, .f32⟩
  | .hbm, ⟨45, _⟩ => ⟨S512x200, .f32⟩
  | .hbm, ⟨46, _⟩ => ⟨S512x200, .f32⟩
  | .hbm, ⟨47, _⟩ => ⟨S512x200, .f32⟩
  | .hbm, ⟨48, _⟩ => ⟨S512x100000, .f32⟩
  | .hbm, ⟨49, _⟩ => ⟨S512x100000, .f32⟩
  | .hbm, ⟨50, _⟩ => ⟨S512x100000, .f32⟩
  | _, _ => ⟨S100000x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  gather_S100000x200_S512x1_S512x200_1_0_n_n_0_1_1200_wf : GatherDims.WF S100000x200 S512x1 S512x200 [1] [0] [] [0] [] 1 ![1, 200]
  gather_S500x200_S512x1_S512x200_1_0_n_n_0_1_1200_wf : GatherDims.WF S500x200 S512x1 S512x200 [1] [0] [] [0] [] 1 ![1, 200]
  dot_S512x200_S100000x200_S512x100000_1_1_0_0_n_n_wf : DotDims.WF S512x200 S100000x200 S512x100000 [1] [1] [0] [0] [] []

variable [Facts₀]

def gather_S100000x200_S512x1_S512x200_1_0_n_n_0_1_1200 : GatherDims S100000x200 S512x1 S512x200 where
  offsetDims := [1]
  collapsedSliceDims := [0]
  operandBatchingDims := []
  startIndicesBatchingDims := []
  startIndexMap := [0]
  indexVectorDim := 1
  sliceSizes := ![1, 200]
  wf := gather_S100000x200_S512x1_S512x200_1_0_n_n_0_1_1200_wf
def gather_S500x200_S512x1_S512x200_1_0_n_n_0_1_1200 : GatherDims S500x200 S512x1 S512x200 where
  offsetDims := [1]
  collapsedSliceDims := [0]
  operandBatchingDims := []
  startIndicesBatchingDims := []
  startIndexMap := [0]
  indexVectorDim := 1
  sliceSizes := ![1, 200]
  wf := gather_S500x200_S512x1_S512x200_1_0_n_n_0_1_1200_wf
def dot_S512x200_S100000x200_S512x100000_1_1_0_0_n_n : DotDims S512x200 S100000x200 S512x100000 where
  lhsContracting := [1]
  rhsContracting := [1]
  lhsNonContracting := [0]
  rhsNonContracting := [0]
  lhsBatch := []
  rhsBatch := []
  wf := dot_S512x200_S100000x200_S512x100000_1_1_0_0_n_n_wf

class Facts : Prop extends Facts₀ where

variable [Facts]
-- ==== Proof.Scores.lean ====
/-
  The scores of a batch of queries against a table of entities, as ONE function of four matrices.

  A query `p` carries two coefficient rows `cr p`, `ci p` of length `K` (the real and imaginary parts of the
  product of its relation and its head entity); an entity `q` carries two rows `er q`, `ei q` (its real and
  imaginary parts). The score of `p` against `q` is

      score p q = Σ_k cr(p,k) · er(q,k)  +  Σ_k ci(p,k) · ei(q,k),

  two inner products, added. The whole score matrix `scores` is that entry at every `(p, q)`. An entry reads only
  row `p` of the coefficients and row `q` of the entity tables (`score_congr`), so a tile of entity rows, a table
  padded with further rows, and the table itself give the same score wherever they hold the same rows.
-/
import Idealize.ShloMosaic.Lib.ValueIdx

noncomputable section

open scoped BigOperators

namespace Cert.Scores

open Idealize.ShloMosaic Idealize.ShloMosaic.ValueIdx

variable {B B' N N' K : ℕ}

/-- The score of query `p` against entity `q`: the inner product of the real coefficients with the entity's real
    part plus that of the imaginary coefficients with its imaginary part. -/
def score (cr ci : (⟨2, ![B, K]⟩ : Shape).Idx → EReal) (er ei : (⟨2, ![N, K]⟩ : Shape).Idx → EReal)
    (p : Fin B) (q : Fin N) : EReal :=
  (∑ k : Fin K, cr (ix2 p k) * er (ix2 q k)) + ∑ k : Fin K, ci (ix2 p k) * ei (ix2 q k)

/-- The score matrix: `score` at every pair. -/
def scores (cr ci : (⟨2, ![B, K]⟩ : Shape).Idx → EReal) (er ei : (⟨2, ![N, K]⟩ : Shape).Idx → EReal) :
    (⟨2, ![B, N]⟩ : Shape).Idx → EReal :=
  fun i => score cr ci er ei (i 0) (i 1)

theorem scores_ix2 (cr ci : (⟨2, ![B, K]⟩ : Shape).Idx → EReal) (er ei : (⟨2, ![N, K]⟩ : Shape).Idx → EReal)
    (p : Fin B) (q : Fin N) : scores cr ci er ei (ix2 p q) = score cr ci er ei p q := rfl

/-- A score reads row `p` of the two coefficient matrices and row `q` of the two entity tables, nothing else: matrices
    of any heights that hold those rows (at rows `p'`, `q'`) give the same score. -/
theorem score_congr (cr ci : (⟨2, ![B, K]⟩ : Shape).Idx → EReal) (er ei : (⟨2, ![N, K]⟩ : Shape).Idx → EReal)
    (cr' ci' : (⟨2, ![B', K]⟩ : Shape).Idx → EReal) (er' ei' : (⟨2, ![N', K]⟩ : Shape).Idx → EReal)
    (p : Fin B) (q : Fin N) (p' : Fin B') (q' : Fin N')
    (hcr : ∀ k, cr (ix2 p k) = cr' (ix2 p' k)) (hci : ∀ k, ci (ix2 p k) = ci' (ix2 p' k))
    (her : ∀ k, er (ix2 q k) = er' (ix2 q' k)) (hei : ∀ k, ei (ix2 q k) = ei' (ix2 q' k)) :
    score cr ci er ei p q = score cr' ci' er' ei' p' q' := by
  unfold score
  simp only [hcr, hci, her, hei]

end Cert.Scores

end
-- ==== Proof.RefScores.lean ====
/-
  The reference's result is the score matrix.

  The reference forms the two coefficient matrices (its stages `%30` and `%33`), multiplies each with the transpose
  of one entity table whole — a general dot product contracting the 200 columns of both operands — and adds the two
  products. Entry `(p, q)` of a product is the inner product of row `p` of the coefficients with row `q` of the
  table, so the sum of the two products is `scores` of the coefficient matrices and the two tables.
-/
import proofs.«116598_j56942676411136_1_alg».proof.Proof.Gen.ReferenceIdeal.Read
import proofs.«116598_j56942676411136_1_alg».proof.Proof.Scores
import Idealize.ShloMosaic.Lib.ValueIdx

noncomputable section

open scoped BigOperators

namespace Cert.ReferenceIdeal.RefScores

open Cert.ReferenceIdeal Cert.ReferenceIdeal.Read Idealize.ShloMosaic Idealize.ShloMosaic.ValueIdx Cert.Scores

/-- The left operand's index of either product at result entry `(p, q)` and contraction position `k`: row `p`,
    column `k`. -/
theorem lidx34 (p : Fin 512) (q : Fin 100000) (k : Fin 200) : lidx_main_v34 (ix2 p q) k = ix2 p k :=
  funext fun a => Fin.ext (by match a with | ⟨0, _⟩ => rfl | ⟨1, _⟩ => rfl)
theorem lidx35 (p : Fin 512) (q : Fin 100000) (k : Fin 200) : lidx_main_v35 (ix2 p q) k = ix2 p k :=
  funext fun a => Fin.ext (by match a with | ⟨0, _⟩ => rfl | ⟨1, _⟩ => rfl)
/-- The right operand's: row `q`, column `k`. -/
theorem ridx34 (p : Fin 512) (q : Fin 100000) (k : Fin 200) : ridx_main_v34 (ix2 p q) k = ix2 q k :=
  funext fun a => Fin.ext (by match a with | ⟨0, _⟩ => rfl | ⟨1, _⟩ => rfl)
theorem ridx35 (p : Fin 512) (q : Fin 100000) (k : Fin 200) : ridx_main_v35 (ix2 p q) k = ix2 q k :=
  funext fun a => Fin.ext (by match a with | ⟨0, _⟩ => rfl | ⟨1, _⟩ => rfl)

/-- The reference's last stage, the sum of its two products, is the score matrix of its coefficient stages and the
    two entity tables. -/
theorem result_eq (x0 x1 : (⟨S100000x200, .f32⟩ : BufTy).Contents (Elt Ideal)) (x2 x3 : (⟨S500x200, .f32⟩ : BufTy).Contents (Elt Ideal))
    (x4 x5 : (⟨S512, .i32⟩ : BufTy).Contents (Elt Ideal)) :
    val_main_v36 (F := Ideal) x0 x1 x2 x3 x4 x5
      = scores (val_main_v30 (F := Ideal) x0 x1 x2 x3 x4 x5) (val_main_v33 (F := Ideal) x0 x1 x2 x3 x4 x5) x0 x1 := by
  funext i
  obtain ⟨p, q, rfl⟩ : ∃ (p : Fin 512) (q : Fin 100000), i = ix2 p q := ⟨i 0, i 1, eq_ix2 i⟩
  rw [val_main_v36_apply, val_main_v34_apply, val_main_v35_apply, scores_ix2]
  simp only [lidx34, lidx35, ridx34, ridx35]
  rfl

end Cert.ReferenceIdeal.RefScores

end
-- ==== Proof.LibDotRowsRows.lean ====
/-
  A matrix product of a matrix with the transpose of another, read at an entry (general in the sizes).

  For a left operand `[R, K]`, a right operand `[N, K]` and a result `[R, N]`, when both operands contract their
  second axis, neither has a batch axis, and the result's axes are the left operand's rows then the right operand's
  rows, the sum over the contraction index at the entry `(p, q)` is the sum over `k : Fin K` of
  `l (p, k) * r (q, k)`: row `p` of the left operand against row `q` of the right one. Stated once for any such
  record of dimension numbers, it reads a kernel's matrix product into a zero accumulator and a host's general dot
  product the same way.
-/
import Idealize.ShloMosaic.Lib.ValueIdx
import Idealize.ShloMosaic.PureOps.Ideal.Laws

open scoped BigOperators

namespace Idealize.ShloMosaic.DotRowsRows

open Idealize.ShloMosaic Idealize.ShloMosaic.ValueIdx

variable {R K N : ℕ}

/-- The dimension numbers of `[R, K] · [N, K]ᵀ → [R, N]`: each operand contracts its columns, no batch axes, the left
    operand's rows before the right operand's rows in the result. -/
structure IsRowsRows (d : DotDims (⟨2, ![R, K]⟩ : Shape) (⟨2, ![N, K]⟩ : Shape) (⟨2, ![R, N]⟩ : Shape)) : Prop where
  lc : d.lhsContracting = [1]
  rc : d.rhsContracting = [1]
  ln : d.lhsNonContracting = [0]
  rn : d.rhsNonContracting = [0]
  lb : d.lhsBatch = []
  rb : d.rhsBatch = []

variable {d : DotDims (⟨2, ![R, K]⟩ : Shape) (⟨2, ![N, K]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsRowsRows d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsRowsRows d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the result's column. -/
theorem rhs_row (h : IsRowsRows d) (j : (⟨2, ![R, N]⟩ : Shape).Idx) (k : d.contr.Idx) :
    (d.rhsIdx j k (0 : Fin 2)).val = (j (1 : Fin 2)).val := by
  have hb : (0 : Fin 2) ∉ d.rhsBatch := by rw [h.rb]; exact List.not_mem_nil
  have hn : (0 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

/-- The right operand's column is the contraction coordinate. -/
theorem rhs_col (h : IsRowsRows d) (j : (⟨2, ![R, N]⟩ : Shape).Idx) (k : d.contr.Idx) :
    (d.rhsIdx j k (1 : Fin 2)).val = (k ⟨0, by rw [d.rank_contr, ← d.length_contracting, h.rc]; exact Nat.one_pos⟩).val :=
  d.rhsIdx_val_of_single h.rc j k

theorem contr_rank (h : IsRowsRows d) : d.contr.rank = 1 := by rw [d.rank_contr, h.lc]; rfl

theorem contr_size (h : IsRowsRows d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsRowsRows d) (l : (⟨2, ![R, K]⟩ : Shape).Idx → EReal) (r : (⟨2, ![N, K]⟩ : Shape).Idx → EReal)
    (p : Fin R) (q : Fin N) :
    ∑ k : d.contr.Idx, l (d.lhsIdx (ix2 p q) k) * r (d.rhsIdx (ix2 p q) k) = ∑ k : Fin K, l (ix2 p k) * r (ix2 q k) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 q k := by
    funext a
    refine Fin.ext ?_
    match a with
    | ⟨0, _⟩ => exact rhs_row h _ _
    | ⟨1, _⟩ => exact (rhs_col h _ _).trans (contrEquiv1_symm_val d K (contr_rank h) (contr_size h) k)
  rw [hl, hr]

/-- A kernel's matrix product into the zero accumulator, at the ideal values, read at `(p, q)`. -/
theorem matmul_zero_apply (h : IsRowsRows d) (prec : Option ContractPrecision)
    (l : FVec Ideal (⟨2, ![R, K]⟩ : Shape) .f32) (r : FVec Ideal (⟨2, ![N, K]⟩ : Shape) .f32) (p : Fin R) (q : Fin N) :
    FloatOps.matmul d prec l r (constant (⟨2, ![R, N]⟩ : Shape) .f32 0x00000000#32) (ix2 p q)
      = ∑ k : Fin K, l (ix2 p k) * r (ix2 q k) :=
  (Ideal.matmul_constant_zero_apply d prec l r (ix2 p q)).trans (sum_contr h l r p q)

/-- A host's general dot product, at the ideal values, read at `(p, q)`. -/
theorem dotGeneral_apply (h : IsRowsRows d) (prec : Option ContractPrecision) (sched : HostSchedule)
    (l : FVec Ideal (⟨2, ![R, K]⟩ : Shape) .f32) (r : FVec Ideal (⟨2, ![N, K]⟩ : Shape) .f32) (p : Fin R) (q : Fin N) :
    FloatOps.dotGeneral d prec sched l r (ix2 p q) = ∑ k : Fin K, l (ix2 p k) * r (ix2 q k) :=
  (Ideal.dotGeneral_apply d prec sched l r (ix2 p q)).trans (sum_contr h l r p q)

end Idealize.ShloMosaic.DotRowsRows
-- ==== Proof.Tile.lean ====
/-
  One grid point of the kernel: the tile of scores it computes.

  At a grid point the body loads the two coefficient matrices whole ([512, 200] each) and one tile of 2048 rows of each
  entity table ([2048, 200] each), narrows all four to bf16 (the identity on extended reals), multiplies the
  coefficients with the transposed tiles into a zero accumulator — two products contracting the 200 columns — and adds
  the two products. Entry `(p, q)` of what it stores is therefore the score of query `p` against row `q` of the
  tile: the stored tile is `scores` of the four loaded blocks.
-/
import proofs.«116598_j56942676411136_1_alg».proof.Proof.Gen.KernelIdeal.Skeleton
import proofs.«116598_j56942676411136_1_alg».proof.Proof.LibDotRowsRows
import proofs.«116598_j56942676411136_1_alg».proof.Proof.Scores
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx
open Idealize.ShloMosaic.DotRowsRows Cert.Scores

/-- The tile product's dimension numbers: rows of the coefficients against rows of the entity tile, the columns
    contracted. -/
theorem dot_rowsRows : IsRowsRows dot_S512x200_S2048x200_S512x2048_1_1_0_0_n_n := ⟨rfl, rfl, rfl, rfl, rfl, rfl⟩

/-- One product of the body at an entry: a narrowed coefficient matrix against a narrowed entity tile, into the zero
    accumulator, is the inner product of row `p` of the one with row `q` of the other. -/
theorem product_apply (x : Vec Ideal S512x200 .f32) (y : Vec Ideal S2048x200 .f32) (p : Fin 512) (q : Fin 2048) :
    matmul (F := Ideal) dot_S512x200_S2048x200_S512x2048_1_1_0_0_n_n none
        (truncf .bf16 (shapeCast S512x200 x Facts₀.shapeCasts_S512x200_S512x200) Facts₀.bitsLt_bf16_f32)
        (truncf .bf16 (shapeCast S2048x200 y Facts₀.shapeCasts_S2048x200_S2048x200) Facts₀.bitsLt_bf16_f32)
        (constant S512x2048 .f32 0x00000000#32) (ix2 p q)
      = ∑ k : Fin 200, x (ix2 p k) * y (ix2 q k) := by
  rw [shapeCast_self, shapeCast_self]
  exact (Ideal.matmul_constant_zero_apply _ none _ _ (ix2 p q)).trans (sum_contr dot_rowsRows _ _ p q)

/-- What the body stores is the score matrix of its four loaded blocks. -/
theorem pay_eq (x0 x1 : Vec Ideal S512x200 .f32) (x2 x3 : Vec Ideal S2048x200 .f32) :
    k0_pay1 (F := Ideal) x0 x1 x2 x3 = scores x0 x1 x2 x3 := by
  funext j
  obtain ⟨p, q, rfl⟩ : ∃ (p : Fin 512) (q : Fin 2048), j = ix2 p q := ⟨j 0, j 1, eq_ix2 j⟩
  unfold k0_pay1
  rw [scores_ix2]
  unfold score
  exact congrArg₂ (· + ·) (product_apply x0 x2 p q) (product_apply x1 x3 p q)

end Cert.KernelIdeal.Tile

end
-- ==== Proof.Blocks.lean ====
/-
  From the tiles to the whole padded score matrix.

  The grid has 49 points. At point `t` the coefficient windows hold the two coefficient matrices whole (block index
  (0, 0) at every point), the entity windows hold rows `2048·t … 2048·t + 2047` of the two padded entity tables
  (block index (t, 0)), and the output window is columns `2048·t … 2048·t + 2047` of the [512, 100352] result
  (block index (0, t)). What the point writes back is the score matrix of its blocks (`Tile.pay_eq`), and a score
  reads one coefficient row and one entity row only, so it is exactly that block of the score matrix of the WHOLE
  arrays. Column `e` of the result lies in the block of point `e / 2048`, so the 49 blocks cover the result, which
  therefore ends as the score matrix of the coefficient matrices against the padded tables.
-/
import proofs.«116598_j56942676411136_1_alg».proof.Proof.Gen.KernelIdeal.Frame
import proofs.«116598_j56942676411136_1_alg».proof.Proof.Tile
import proofs.«116598_j56942676411136_1_alg».proof.Proof.Scores
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Scores

variable (m : (ℓ : Loc nD τ sig) → Buf (Elt Ideal) ℓ) (ρ : Dev nD → PrngReg)

theorem hz : (![0, 0] : Fin 2 → Nat) = fun _ => 0 := funext fun a => by fin_cases a <;> rfl

/-- The score matrix of the coefficient matrices against the padded entity tables, all four as the region finds
    them. -/
abbrev padded (c : Dev nD) : S512x100352.Idx → EReal :=
  scores (V m c main_v30 : Vec Ideal S512x200 .f32) (V m c main_v33 : Vec Ideal S512x200 .f32)
    (V m c main_v34 : Vec Ideal S100352x200 .f32) (V m c main_v35 : Vec Ideal S100352x200 .f32)

/-- The printed index maps over the 49 points: the coefficient windows stay at block (0, 0); the entity windows are at
    block (t, 0); the output window is at block (0, t). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val :=
  (by decide +kernel : ∀ t : Fin grid0.N, _)

/-- Every column block of the result is some point's. -/
theorem idx_onto : ∀ q : Fin 49, ∃ t : Fin cfg0.N, win0_4.index t = ![0, q.val] :=
  (by decide +kernel : ∀ q : Fin 49, ∃ t : Fin grid0.N, win0_4.index t = ![0, q.val])

set_option maxHeartbeats 1000000 in
/-- What point `t` writes back is block `t` of the padded score matrix. -/
theorem flushed_eq (c : Dev nD) (t : Fin cfg0.N) :
    (dats m 0 c).flushed 4 t = ((cfg0.win 4).blk t).view.read (Elt Ideal) (padded m c) := by
  show (cfg0.win 4).cut (grid0.coords t) ((dats m 0 c).after 4 t) = _
  rw [after0_4]
  unfold out0_4
  rw [View.canon_unit_zero hz]
  simp only [View.ld_unit_zero (S := S512x200) hz, View.ld_unit_zero (S := S2048x200) hz]
  rw [Tile.pay_eq]
  obtain ⟨a0, a1, b0, b1, c0, c1, d0, d1, e0, e1⟩ := idx_facts t
  funext j
  show score (iblk m c 0 t) (iblk m c 1 t) (iblk m c 2 t) (iblk m c 3 t) (j 0) (j 1)
      = score (V m c main_v30 : Vec Ideal S512x200 .f32) (V m c main_v33 : Vec Ideal S512x200 .f32)
          (V m c main_v34 : Vec Ideal S100352x200 .f32) (V m c main_v35 : Vec Ideal S100352x200 .f32)
          ((((cfg0.win 4).blk t).view.emb j) 0) ((((cfg0.win 4).blk t).view.emb j) 1)
  have hj0 : (j 0).val < 512 := (j 0).isLt
  have hj1 : (j 1).val < 2048 := (j 1).isLt
  refine score_congr (iblk m c 0 t) (iblk m c 1 t) (iblk m c 2 t) (iblk m c 3 t)
    (V m c main_v30 : Vec Ideal S512x200 .f32) (V m c main_v33 : Vec Ideal S512x200 .f32)
    (V m c main_v34 : Vec Ideal S100352x200 .f32) (V m c main_v35 : Vec Ideal S100352x200 .f32)
    (j 0) (j 1) ((((cfg0.win 4).blk t).view.emb j) 0) ((((cfg0.win 4).blk t).view.emb j) 1)
    (fun k => ?_) (fun k => ?_) (fun k => ?_) (fun k => ?_)
  · show V m c main_v30 (((cfg0.win 0).blk t).view.emb (ix2 (j 0) k)) = _
    refine congrArg (V m c main_v30) (funext fun a => Fin.ext ?_)
    match a with
    | ⟨0, _⟩ => show win0_0.index t (0 : Fin 2) * 512 + 1 * (j 0).val = win0_4.index t (0 : Fin 2) * 512 + 1 * (j 0).val; omega
    | ⟨1, _⟩ => show win0_0.index t (1 : Fin 2) * 200 + 1 * k.val = k.val; omega
  · show V m c main_v33 (((cfg0.win 1).blk t).view.emb (ix2 (j 0) k)) = _
    refine congrArg (V m c main_v33) (funext fun a => Fin.ext ?_)
    match a with
    | ⟨0, _⟩ => show win0_1.index t (0 : Fin 2) * 512 + 1 * (j 0).val = win0_4.index t (0 : Fin 2) * 512 + 1 * (j 0).val; omega
    | ⟨1, _⟩ => show win0_1.index t (1 : Fin 2) * 200 + 1 * k.val = k.val; omega
  · show V m c main_v34 (((cfg0.win 2).blk t).view.emb (ix2 (j 1) k)) = _
    refine congrArg (V m c main_v34) (funext fun a => Fin.ext ?_)
    match a with
    | ⟨0, _⟩ => show win0_2.index t (0 : Fin 2) * 2048 + 1 * (j 1).val = win0_4.index t (1 : Fin 2) * 2048 + 1 * (j 1).val; omega
    | ⟨1, _⟩ => show win0_2.index t (1 : Fin 2) * 200 + 1 * k.val = k.val; omega
  · show V m c main_v35 (((cfg0.win 3).blk t).view.emb (ix2 (j 1) k)) = _
    refine congrArg (V m c main_v35) (funext fun a => Fin.ext ?_)
    match a with
    | ⟨0, _⟩ => show win0_3.index t (0 : Fin 2) * 2048 + 1 * (j 1).val = win0_4.index t (1 : Fin 2) * 2048 + 1 * (j 1).val; omega
    | ⟨1, _⟩ => show win0_3.index t (1 : Fin 2) * 200 + 1 * k.val = k.val; omega

/-- An index of the result is in point `t`'s block iff each coordinate is in the block's range on its axis. -/
theorem mem_blk (t : Fin cfg0.N) (i : S512x100352.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v36).slice (win0_4.rect t)).set ↔ _
  rw [View.set_slice_whole, Rect.mem_set_unit]
  exact Iff.rfl

/-- Every entry of the result is in the block of the point its column falls in. -/
theorem cover (i : S512x100352.Idx) : ∃ t : Fin cfg0.N, (cfg0.win 4).flush t = true ∧ i ∈ ((cfg0.win 4).blk t).view.set := by
  have hi0 : (i 0).val < 512 := (i 0).isLt
  have hi1 : (i 1).val < 100352 := (i 1).isLt
  obtain ⟨t, ht⟩ := idx_onto ⟨(i 1).val / 2048, by omega⟩
  have q0 : win0_4.index t (0 : Fin 2) = 0 := congrFun ht 0
  have q1 : win0_4.index t (1 : Fin 2) = (i 1).val / 2048 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2048 ≤ (i 1).val ∧ (i 1).val < win0_4.index t (1 : Fin 2) * 2048 + 2048; omega

/-- The result array after the region: the padded score matrix. -/
theorem final (c : Dev nD) : (dats m 0 c).arrAt 4 cfg0.N = padded m c :=
  (dats m 0 c).arrAt_eq_of_cover 4 (padded m c) (fun t _ => flushed_eq m c t) cover

end Cert.KernelIdeal.Blocks

end
-- ==== Proof.LibColSlice.lean ====
/-
  A slice of columns of a matrix, read at an entry (general in the sizes and the element type).

  From a matrix `[r, n]` the columns `o … o + w − 1` of every row form a matrix `[r, w]`; its entry `(p, j)` is the
  source's entry `(p, o + j)`. This is what splitting a row of several gates' pre-activations into the gates
  prints, in a kernel and on a host alike.
-/
import Idealize.ShloMosaic.Lib.Pipeline.Value
import Idealize.ShloMosaic.Lib.ValueIdx

namespace Cert.Lib.ColSlice

open Idealize.ShloMosaic Idealize.ShloMosaic.ValueIdx

variable {α : Type}

/-- The slice's entry `(p, j)` is the source's entry `(p, j')` with `j' = o + j`. -/
theorem cols_apply {r n w : ℕ} (o : ℕ) (x : (⟨2, ![r, n]⟩ : Shape).Idx → α)
    (h : (⟨2, ![r, n]⟩ : Shape).Slices ![0, o] (⟨2, ![r, w]⟩ : Shape)) (p : Fin r) (j : Fin w) (j' : Fin n)
    (hj : j'.val = o + j.val) :
    extractStridedSlice (⟨2, ![r, w]⟩ : Shape) ![0, o] x h (ix2 p j) = x (ix2 p j') :=
  extractStridedSlice_apply _ x h _ _ fun a =>
    match a with
    | ⟨0, _⟩ => (Nat.zero_add _).symm
    | ⟨1, _⟩ => hj

end Cert.Lib.ColSlice
-- ==== Proof.HostSide.lean ====
/-
  The host lines around the region, and the kernel program's result.

  BEFORE the region the program gathers the head entities' and the relations' rows and combines them into the two
  coefficient matrices — the very operations, in the very order, of the reference's stages `%30` and `%33` — and
  pads each entity table from 100000 to 100352 rows with 352 rows of zeros at the end: row `q < 100000` of a padded
  table is row `q` of the table. AFTER the region it keeps columns `0 … 99999` of the [512, 100352] result.

  The region leaves the score matrix of the coefficients against the PADDED tables (`Blocks.final`). A kept column
  `e < 100000` reads row `e` of the padded tables only, which is row `e` of the tables themselves; the padding rows
  are read by the dropped columns alone. So the program's result is the score matrix of the coefficient matrices
  against the two entity tables.
-/
import proofs.«116598_j56942676411136_1_alg».proof.Proof.Gen.KernelIdeal.Frame
import proofs.«116598_j56942676411136_1_alg».proof.Proof.Gen.ReferenceIdeal.Read
import proofs.«116598_j56942676411136_1_alg».proof.Proof.Blocks
import proofs.«116598_j56942676411136_1_alg».proof.Proof.Scores
import proofs.«116598_j56942676411136_1_alg».proof.Proof.LibColSlice
import Idealize.ShloMosaic.Lib.StableHlo.Run
import Idealize.ShloMosaic.Lib.KernelVsHost
import Idealize.ShloMosaic.Lib.Pipeline.Value
import Idealize.ShloMosaic.Lib.ValueIdx

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo
open Idealize.ShloMosaic.Pipeline (Dat)
open Idealize.ShloMosaic.ValueIdx Cert.Scores

variable (m : (ℓ : Loc nD τ sig) → Buf (Elt Ideal) ℓ) (ρ : Dev nD → PrngReg)

/-- The six argument arrays as launched, at their literal types. -/
abbrev entR (c : Dev nD) : (⟨S100000x200, .f32⟩ : BufTy).Contents (Elt Ideal) := m ((c : Thread nD τ).loc main_arg0)
abbrev entI (c : Dev nD) : (⟨S100000x200, .f32⟩ : BufTy).Contents (Elt Ideal) := m ((c : Thread nD τ).loc main_arg1)
abbrev relR (c : Dev nD) : (⟨S500x200, .f32⟩ : BufTy).Contents (Elt Ideal) := m ((c : Thread nD τ).loc main_arg2)
abbrev relI (c : Dev nD) : (⟨S500x200, .f32⟩ : BufTy).Contents (Elt Ideal) := m ((c : Thread nD τ).loc main_arg3)
abbrev heads (c : Dev nD) : (⟨S512, .i32⟩ : BufTy).Contents (Elt Ideal) := m ((c : Thread nD τ).loc main_arg4)
abbrev rels (c : Dev nD) : (⟨S512, .i32⟩ : BufTy).Contents (Elt Ideal) := m ((c : Thread nD τ).loc main_arg5)

set_option maxHeartbeats 2000000 in
/-- The real coefficient matrix as the region finds it is the reference's stage `%30` of the arguments. -/
theorem coefR_eq (c : Dev nD) :
    (V m c main_v30 : Vec Ideal S512x200 .f32)
      = Cert.ReferenceIdeal.Read.val_main_v30 (F := Ideal) (entR m c) (entI m c) (relR m c) (relI m c) (heads m c) (rels m c) := by
  dsimp only [V, V0]
  simp only [hostOps0, hostOps0_1, hostOps0_2, hostOps0_3, List.flatten_cons, List.flatten_nil, List.append_nil, List.cons_append, List.nil_append]
  after_results_simp
  rfl

set_option maxHeartbeats 2000000 in
/-- The imaginary coefficient matrix as the region finds it is the reference's stage `%33` of the arguments. -/
theorem coefI_eq (c : Dev nD) :
    (V m c main_v33 : Vec Ideal S512x200 .f32)
      = Cert.ReferenceIdeal.Read.val_main_v33 (F := Ideal) (entR m c) (entI m c) (relR m c) (relI m c) (heads m c) (rels m c) := by
  dsimp only [V, V0]
  simp only [hostOps0, hostOps0_1, hostOps0_2, hostOps0_3, List.flatten_cons, List.flatten_nil, List.append_nil, List.cons_append, List.nil_append]
  after_results_simp
  rfl

set_option maxHeartbeats 2000000 in
/-- The padded real table is the real table padded (with some value) by 352 rows at the end. -/
theorem padR_form (c : Dev nD) : ∃ v : (⟨S_, .f32⟩ : BufTy).Contents (Elt Ideal),
    (V m c main_v34 : Vec Ideal S100352x200 .f32)
      = pad S100352x200 ![0, 0] ![352, 0] ![0, 0] (entR m c) v Facts₀.pads_S100000x200_S100352x200_03520_000 Facts₀.h_S_ := by
  refine ⟨?v, ?h⟩
  case h =>
    dsimp only [V, V0]
    simp only [hostOps0, hostOps0_1, hostOps0_2, hostOps0_3, List.flatten_cons, List.flatten_nil, List.append_nil, List.cons_append, List.nil_append]
    after_results_simp
    rfl

set_option maxHeartbeats 2000000 in
/-- The padded imaginary table likewise. -/
theorem padI_form (c : Dev nD) : ∃ v : (⟨S_, .f32⟩ : BufTy).Contents (Elt Ideal),
    (V m c main_v35 : Vec Ideal S100352x200 .f32)
      = pad S100352x200 ![0, 0] ![352, 0] ![0, 0] (entI m c) v Facts₀.pads_S100000x200_S100352x200_03520_000 Facts₀.h_S_ := by
  refine ⟨?v, ?h⟩
  case h =>
    dsimp only [V, V0]
    simp only [hostOps0, hostOps0_1, hostOps0_2, hostOps0_3, List.flatten_cons, List.flatten_nil, List.append_nil, List.cons_append, List.nil_append]
    after_results_simp
    rfl

/-- Row `q < 100000` of the padded real table is row `q` of the real table. -/
theorem padR_apply (c : Dev nD) (q : Fin 100352) (q' : Fin 100000) (h : q.val = q'.val) (k : Fin 200) :
    (V m c main_v34 : Vec Ideal S100352x200 .f32) (ix2 q k) = entR m c (ix2 q' k) := by
  obtain ⟨v, e⟩ := padR_form m c
  rw [e]
  exact pad_apply_of_inside _ _ _ (entR m c) v _ _ (ix2 q k) (ix2 q' k) fun a =>
    match a with
    | ⟨0, _⟩ => (show q.val = 0 + q'.val * (0 + 1) by omega)
    | ⟨1, _⟩ => (show k.val = 0 + k.val * (0 + 1) by omega)

/-- Row `q < 100000` of the padded imaginary table is row `q` of the imaginary table. -/
theorem padI_apply (c : Dev nD) (q : Fin 100352) (q' : Fin 100000) (h : q.val = q'.val) (k : Fin 200) :
    (V m c main_v35 : Vec Ideal S100352x200 .f32) (ix2 q k) = entI m c (ix2 q' k) := by
  obtain ⟨v, e⟩ := padI_form m c
  rw [e]
  exact pad_apply_of_inside _ _ _ (entI m c) v _ _ (ix2 q k) (ix2 q' k) fun a =>
    match a with
    | ⟨0, _⟩ => (show q.val = 0 + q'.val * (0 + 1) by omega)
    | ⟨1, _⟩ => (show k.val = 0 + k.val * (0 + 1) by omega)

/-- The program's result buffer after the line that follows the region: the first 100000 columns of what the region
    left in its output array. -/
theorem tail_eq (c : Dev nD) :
    Pipeline.afterTail₀ cfgs (dats m) 0 (V0 m) [hostOps1] c main_v37
      = extractStridedSlice S512x100000 ![0, 0] ((dats m 0 c).arrAt 4 cfg0.N) Facts₀.slices_S512x100352_S512x100000_0_0 := by
  unfold Pipeline.afterTail₀
  show StableHlo.after hostOps1 _ (Proc.devRef .tc main_v37) = _
  after_results
  rw [Pipeline.withArrays_arr spec0 launch0.win.arr_inj c _ _ 4]

/-- THE RESULT: the score matrix of the coefficient matrices (the reference's stages of the arguments) against the
    two entity tables. A kept column `e` reads row `e` of the padded tables, which is row `e` of the tables. -/
theorem result_eq (c : Dev nD) :
    Pipeline.afterTail₀ cfgs (dats m) 0 (V0 m) [hostOps1] c main_v37
      = scores (Cert.ReferenceIdeal.Read.val_main_v30 (F := Ideal) (entR m c) (entI m c) (relR m c) (relI m c) (heads m c) (rels m c))
          (Cert.ReferenceIdeal.Read.val_main_v33 (F := Ideal) (entR m c) (entI m c) (relR m c) (relI m c) (heads m c) (rels m c))
          (entR m c) (entI m c) := by
  rw [tail_eq, Blocks.final, ← coefR_eq, ← coefI_eq]
  funext i
  obtain ⟨p, e, rfl⟩ : ∃ (p : Fin 512) (e : Fin 100000), i = ix2 p e := ⟨i 0, i 1, eq_ix2 i⟩
  have he : e.val < 100352 := by have := e.isLt; omega
  rw [Cert.Lib.ColSlice.cols_apply 0 _ _ p e (⟨e.val, he⟩ : Fin 100352) (Nat.zero_add _).symm, scores_ix2]
  show score (V m c main_v30 : Vec Ideal S512x200 .f32) (V m c main_v33 : Vec Ideal S512x200 .f32)
      (V m c main_v34 : Vec Ideal S100352x200 .f32) (V m c main_v35 : Vec Ideal S100352x200 .f32) p (⟨e.val, he⟩ : Fin 100352) = _
  exact score_congr _ _ _ _ _ _ _ _ p (⟨e.val, he⟩ : Fin 100352) p e (fun _ => rfl) (fun _ => rfl)
    (fun k => padR_apply m c _ e rfl k) (fun k => padI_apply m c _ e rfl k)

/-- The program's run at the ideal values: it terminates with its result at the score matrix and its arguments
    unchanged. -/
theorem run : θ_run defs (onTc (τ := τ) (main (F := Ideal))) ⟨m, fun _ => 0, ρ⟩ fun r => ∀ c : Dev nD,
      r.2.mem ((c.tc : Thread nD τ).loc main_v37)
        = scores (Cert.ReferenceIdeal.Read.val_main_v30 (F := Ideal) (entR m c) (entI m c) (relR m c) (relI m c) (heads m c) (rels m c))
            (Cert.ReferenceIdeal.Read.val_main_v33 (F := Ideal) (entR m c) (entI m c) (relR m c) (relI m c) (heads m c) (rels m c))
            (entR m c) (entI m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v37 (Pipeline.mem_restRefs_of main_v37 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.HostSide

end
-- ==== Proof.lean ====
/-
  Scores of 512 (head, relation) queries against all 100000 entities: a tiled kernel against two whole products.

  Both programs first form, by the same gathers and elementwise products, two [512, 200] coefficient matrices
  `cr = rel_r·src_r − rel_i·src_i` and `ci = rel_r·src_i + rel_i·src_r` (the real and imaginary parts of relation times
  head). The reference then computes `cr · entity_rᵀ + ci · entity_iᵀ` as two whole products. The kernel program pads
  both entity tables with 352 zero rows to 100352 = 49 · 2048 rows, runs a 49-point grid whose point `t` multiplies the
  coefficients (narrowed to bf16, the identity on extended reals) with rows `2048·t …` of the padded tables and stores
  the sum of the two products as columns `2048·t …` of a [512, 100352] array, and finally keeps the first 100000
  columns.

  At the ideal values every entry of either result is
      Σ_k cr(p,k) · entity_r(e,k)  +  Σ_k ci(p,k) · entity_i(e,k)
  (`Scores.score`): for the reference by reading its two products at an entry (`RefScores.result_eq`); for the kernel
  because a tile's entry is that sum over the tile's rows (`Tile.pay_eq`), the tiles cover the padded result
  (`Blocks.final`), and a kept column only ever reads a table row below 100000, which padding leaves alone
  (`HostSide.result_eq`). No law beyond the definition of the matrix product is used, so the inputs' finiteness is
  never opened. The three frames are the generated frame certificates of the two kernel programs and the reference's
  generated run; the idealization rewrote nothing, so `preserves` is trivial.
-/
import proofs.«116598_j56942676411136_1_alg».proof.Defs
import proofs.«116598_j56942676411136_1_alg».proof.Proof.Gen.Kernel
import proofs.«116598_j56942676411136_1_alg».proof.Proof.Gen.Kernel.Skeleton
import proofs.«116598_j56942676411136_1_alg».proof.Proof.Gen.Kernel.Launch
import proofs.«116598_j56942676411136_1_alg».proof.Proof.Gen.Kernel.Points
import proofs.«116598_j56942676411136_1_alg».proof.Proof.Gen.Kernel.Frame
import proofs.«116598_j56942676411136_1_alg».proof.Proof.Gen.KernelIdeal
import proofs.«116598_j56942676411136_1_alg».proof.Proof.Gen.KernelIdeal.Skeleton
import proofs.«116598_j56942676411136_1_alg».proof.Proof.Gen.KernelIdeal.Launch
import proofs.«116598_j56942676411136_1_alg».proof.Proof.Gen.KernelIdeal.Points
import proofs.«116598_j56942676411136_1_alg».proof.Proof.Gen.KernelIdeal.Frame
import proofs.«116598_j56942676411136_1_alg».proof.Proof.Gen.ReferenceIdeal
import proofs.«116598_j56942676411136_1_alg».proof.Proof.Gen.Pre_finite_inputs
import proofs.«116598_j56942676411136_1_alg».proof.Proof.Gen.ReferenceIdeal.Run
import proofs.«116598_j56942676411136_1_alg».proof.Proof.Gen.ReferenceIdeal.Read
import proofs.«116598_j56942676411136_1_alg».proof.Proof.RefScores
import proofs.«116598_j56942676411136_1_alg».proof.Proof.HostSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the score matrix of the same coefficient stages against the same two entity tables, once
    the arguments' agreement is rewritten. -/
theorem algebraic : Cert.algebraic_KernelIdeal_ReferenceIdeal := by
  intro m ρ m' ρ' _ hagree
  refine ⟨_, Cert.KernelIdeal.HostSide.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v36_eq _ _ _ _ _ _).trans ?_
  rw [Cert.ReferenceIdeal.RefScores.result_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
